-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩

abbrev nBuf : Space → Nat
  | .hbm => 111
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S_, .f32⟩
  | .hbm, ⟨90, _⟩ => ⟨S128x128, .f32⟩
  | .hbm, ⟨91, _⟩ => ⟨S1x1, .f32⟩
  | .hbm, ⟨92, _⟩ => ⟨S_, .i32⟩
  | .hbm, ⟨93, _⟩ => ⟨S_, .f32⟩
  | .hbm, ⟨94, _⟩ => ⟨S1x128, .f32⟩
  | .hbm, ⟨95, _⟩ => ⟨S100000x128, .f32⟩
  | .hbm, ⟨96, _⟩ => ⟨S100000x1, .f32⟩
  | .hbm, ⟨97, _⟩ => ⟨S100000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S1, .f32⟩
  | .hbm, ⟨103, _⟩ => ⟨S100000, .f32⟩
  | .hbm, ⟨104, _⟩ => ⟨S100000, .f32⟩
  | .hbm, ⟨105, _⟩ => ⟨S100000, .f32⟩
  | .hbm, ⟨106, _⟩ => ⟨S_, .f32⟩
  | .hbm, ⟨107, _⟩ => ⟨S_, .f32⟩
  | .hbm, ⟨108, _⟩ => ⟨S1, .f32⟩
  | .hbm, ⟨109, _⟩ => ⟨S100000, .f32⟩
  | .hbm, ⟨110, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  pads_S128x1_S128x128_000_01270 : S128x1.Pads (![0, 0] : Fin 2 → Nat) ![0, 127] ![0, 0] S128x128
  h_S_ : 0 < S_.numel
  bcast_S1_S1x1_1 : S1.BroadcastsInDim S1x1 (![1] : Fin 1 → Fin S1x1.rank)
  pads_S1x1_S1x128_000_01270 : S1x1.Pads (![0, 0] : Fin 2 → Nat) ![0, 127] ![0, 0] S1x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S100000x128_S100000x1_0_0 : S100000x128.Slices ![0, 0] S100000x1
  shapeCasts_S100000x1_S100000 : S100000x1.ShapeCasts S100000
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x1, .f32⟩
  | .hbm, ⟨91, _⟩ => ⟨S1x1, .f32⟩
  | .hbm, ⟨92, _⟩ => ⟨S100000x1, .f32⟩
  | .hbm, ⟨93, _⟩ => ⟨S100000x1, .f32⟩
  | .hbm, ⟨94, _⟩ => ⟨S100000, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S100000, .f32⟩
  | .hbm, ⟨101, _⟩ => ⟨S100000, .f32⟩
  | .hbm, ⟨102, _⟩ => ⟨S100000, .f32⟩
  | .hbm, ⟨103, _⟩ => ⟨S_, .f32⟩
  | .hbm, ⟨104, _⟩ => ⟨S_, .f32⟩
  | .hbm, ⟨105, _⟩ => ⟨S1, .f32⟩
  | .hbm, ⟨106, _⟩ => ⟨S100000, .f32⟩
  | .hbm, ⟨107, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  reducesTo_S100000_S_d0 : S100000.ReducesTo [0] S_
  h_S_ : 0 < S_.numel
  bcast_S_S1 : S_.BroadcastsInDim S1 (![] : Fin 0 → Fin S1.rank)
  bcast_S1_S100000_0 : S1.BroadcastsInDim S100000 (![0] : Fin 1 → Fin S100000.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The computation both programs perform, stage by stage, as functions of the argument arrays — written once, over the
  reference program's shapes and dimension records, so that each program's run can be stated against the same terms.

  A graph convolution over N = 100000 nodes with E = 1600000 edges and one self loop per node:
    rows, cols   the edges' source and target nodes, the self loops appended (1700000 entries each);
    deg          the number of edges into each node (a scatter-add of ones at cols);
    dinv         deg^(-1/2) where deg > 0, else 0;
    norm         dinv at an edge's source times dinv at its target;
    aggregate T  the scatter-add at cols of (row rows(e) of T) · norm(e), plus a bias row;
    hidden₁ = tanh (aggregate (X · W₁) + b₁), hidden₂ = tanh (aggregate (hidden₁ · W₂) + b₂);
    logits = hidden₂ · w_c + b_c (one number per node); the result is softmax over all nodes.
  A negative index is wrapped by adding N before a gather. Gather and scatter-add are total functions of
  their index arrays, so no stage needs a range fact about the edge list.
-/
import proofs.«174331_j12884901888559_1_alg».proof.Proof.Gen.ReferenceIdeal

noncomputable section

namespace Cert.Spec

open Cert.ReferenceIdeal Cert.ReferenceIdeal.Facts₀ Cert.ReferenceIdeal.Facts Idealize.ShloMosaic

variable {F : FTy → Type} [FloatOps F]

/-- The contents of an array of a shape and element type. -/
abbrev Arr (F : FTy → Type) (S : Shape) (e : EltTy) : Type := (⟨S, e⟩ : BufTy).Contents (Elt F)

/-- The edges' source nodes, then every node once (the self loops). -/
def rowsOf (e : Arr F S2x1600000 .i32) : Arr F S1700000 .i32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' target nodes, then every node once. -/
def colsOf (e : Arr F S2x1600000 .i32) : Arr F S1700000 .i32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector made ready for a gather: a negative entry has N added, and the vector becomes a column. -/
def wrapped (v : Arr F S1700000 .i32) : Arr F S1700000x1 .i32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node: ones added at the targets. -/
def degOf (e : Arr F S2x1600000 .i32) : Arr F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (colsOf e)) (broadcastInDim S1700000 ![] bcast_S_S1700000 (constant S_ .f32 0x3F800000#32))

/-- deg^(-1/2) where the degree is positive, else 0. -/
def dinvOf (e : Arr F S2x1600000 .i32) : Arr F S100000 .f32 :=
  select (cmpf (F := F) .ogt (degOf e) (broadcastInDim S100000 ![] bcast_S_S100000 (constant S_ .f32 0x00000000#32))) (Host.rsqrt (degOf e)) (broadcastInDim S100000 ![] bcast_S_S100000 (id (constant S_ .f32 0x00000000#32)))

/-- The symmetric normalization of every edge. -/
def normOf (e : Arr F S2x1600000 .i32) : Arr F S1700000 .f32 :=
  mulf (Host.gather gather_S100000_S1700000x1_S1700000_n_0_n_n_0_1_1 (dinvOf e) (wrapped (rowsOf e))) (Host.gather gather_S100000_S1700000x1_S1700000_n_0_n_n_0_1_1 (dinvOf e) (wrapped (colsOf e)))

/-- One aggregation: gather the source rows, scale by the edge's normalization, add at the targets, add the bias row. -/
def aggregate (T : Arr F S100000x128 .f32) (e : Arr F S2x1600000 .i32) (b : Arr F S128 .f32) : Arr F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (colsOf e)) (mulf (Host.gather gather_S100000x128_S1700000x1_S1700000x128_1_0_n_n_0_1_1128 T (wrapped (rowsOf e))) (broadcastInDim S1700000x128 ![0, 1] bcast_S1700000x1_S1700000x128_0_1 (broadcastInDim S1700000x1 ![0] bcast_S1700000_S1700000x1_0 (normOf e))))) (broadcastInDim S100000x128 ![0, 1] bcast_S1x128_S100000x128_0_1 (broadcastInDim S1x128 ![1] bcast_S128_S1x128_1 b))

/-- A matrix product of a node array by a square weight matrix. -/
def times (H : Arr F S100000x128 .f32) (W : Arr F S128x128 .f32) : Arr F S100000x128 .f32 :=
  Host.dotGeneral dot_S100000x128_S128x128_S100000x128_1_0_0_1_n_n none H W

/-- The first layer's pre-activation. -/
def layer1 (x : Arr F S100000x128 .f32) (e : Arr F S2x1600000 .i32) (w1 : Arr F S128x128 .f32) (b1 : Arr F S128 .f32) : Arr F S100000x128 .f32 :=
  aggregate (times x w1) e b1

/-- The second layer's pre-activation. -/
def layer2 (x : Arr F S100000x128 .f32) (e : Arr F S2x1600000 .i32) (w1 : Arr F S128x128 .f32) (b1 : Arr F S128 .f32)
    (w2 : Arr F S128x128 .f32) (b2 : Arr F S128 .f32) : Arr F S100000x128 .f32 :=
  aggregate (times (Host.tanh (layer1 x e w1 b1)) w2) e b2

/-- One logit per node from a node array: its product with a column, plus a bias, laid out as a vector. -/
def logitsOf (H : Arr F S100000x128 .f32) (wc : Arr F S128x1 .f32) (bc : Arr F S1 .f32) : Arr F S100000 .f32 :=
  shapeCast _ (addf (Host.dotGeneral dot_S100000x128_S128x1_S100000x1_1_0_0_1_n_n none H wc) (broadcastInDim S100000x1 ![0, 1] bcast_S1x1_S100000x1_0_1 (broadcastInDim S1x1 ![1] bcast_S1_S1x1_1 bc))) shapeCasts_S100000x1_S100000

/-- exp (l − max l), the maximum taken over all nodes (and −∞). -/
def shifted (l : Arr F S100000 .f32) : Arr F S100000 .f32 :=
  Host.exp (subf l (broadcastInDim S100000 ![0] bcast_S1_S100000_0 (broadcastInDim S1 ![] bcast_S_S1 (maximumf (constant S_ .f32 0xFF800000#32) (Host.reduce FloatOps.maximumf l (constant S_ .f32 0xFF800000#32) reducesTo_S100000_S_d0 h_S_)))))

/-- The softmax over all nodes. -/
def softmaxOf (l : Arr F S100000 .f32) : Arr F S100000 .f32 :=
  Host.divf (shifted l) (broadcastInDim S100000 ![0] bcast_S1_S100000_0 (broadcastInDim S1 ![] bcast_S_S1 (Host.reduceAdd (shifted l) (constant S_ .f32 0x00000000#32) reducesTo_S100000_S_d0 h_S_)))

/-- The whole computation. -/
def result (x : Arr F S100000x128 .f32) (e : Arr F S2x1600000 .i32) (w1 : Arr F S128x128 .f32) (b1 : Arr F S128 .f32)
    (w2 : Arr F S128x128 .f32) (b2 : Arr F S128 .f32) (wc : Arr F S128x1 .f32) (bc : Arr F S1 .f32) : Arr F S100000 .f32 :=
  softmaxOf (logitsOf (Host.tanh (layer2 x e w1 b1 w2 b2)) wc bc)

end Cert.Spec

end
-- ==== Proof.RefValue.lean ====
/-
  The reference program's result is the staged computation of the argument arrays: the composed term its run states,
  with every repeated sub-term named, is that computation by unfolding the names.
-/
import proofs.«174331_j12884901888559_1_alg».proof.Proof.RefRun
import proofs.«174331_j12884901888559_1_alg».proof.Proof.Spec

set_option maxRecDepth 16384

noncomputable section

namespace Cert.ReferenceIdeal.RefValue

open Cert.ReferenceIdeal Idealize.ShloMosaic Idealize.ShloMosaic.TcCoe Idealize.SL.Sem

variable {F : FTy → Type} [FloatOps F]

set_option maxHeartbeats 4000000 in
/-- The run's composed term is the staged computation. -/
theorem result_eq (m : (ℓ : Loc nD τ sig) → Buf (Elt F) ℓ) (c : Dev nD) :
    RunP.res_main_v80 (F := F) m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold RunP.res_main_v80
  rfl

end Cert.ReferenceIdeal.RefValue

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«174331_j12884901888559_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.Linear0.lean ====
/-
  The first kernel region: the rows of a [100000, 128] array, 4000 at a time, each block multiplied by a resident
  [128, 128] matrix into a zero accumulator. At the exact instance the change of format in front of the product is the
  identity, so point t writes back rows 4000·t … 4000·t + 3999 of the whole product X · W, and the twenty-five blocks tile
  the result array: after the region the result array IS the host's plain product of the two arrays the region found.
-/
import proofs.«174331_j12884901888559_1_alg».proof.Proof.Gen.KernelIdeal.Frame
import proofs.«174331_j12884901888559_1_alg».proof.Proof.LibMatmulPlain
import proofs.«174331_j12884901888559_1_alg».proof.Proof.LibDotPlain
import Idealize.ShloMosaic.Lib.ValueIdx
import Idealize.ShloMosaic.Lib.Pipeline.Value

set_option maxRecDepth 16384

noncomputable section

namespace Cert.KernelIdeal.Linear0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The origin of a rank-two block. -/
theorem origin : (![0, 0] : Fin 2 → Nat) = fun _ => 0 := funext fun a => by fin_cases a <;> rfl

/-- The grid has twenty-five points. -/
theorem point_lt (t : Fin cfg0.N) : t.val < 25 := lt_of_lt_of_eq t.isLt N_0

/-- The index maps over the grid: the row-block windows move with the point, the matrix window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product the region computes, as the host spells it. -/
abbrev product (X : FVec Ideal S100000x128 .f32) (W : FVec Ideal S128x128 .f32) : FVec Ideal S100000x128 .f32 :=
  Host.dotGeneral (DotDims.plain 100000 128 128) none X W

/-- The body's stored value at an entry: the sum over the contraction coordinate. -/
theorem stored_apply (x0 : Vec Ideal S4000x128 .f32) (x1 : Vec Ideal S128x128 .f32) (p : Fin 4000) (q : Fin 128) :
    k0_pay1 x0 x1 (ix2 p q) = ∑ k : Fin 128, x0 (ix2 p k) * x1 (ix2 k q) := by
  unfold k0_pay1
  exact MatmulPlain.matmul_zero_apply (M := 4000) (K := 128) (N := 128) none _ _ p q

/-- Row p of point t's block is row 4000·t + p of the array. -/
def rowAt (t : Fin cfg0.N) (p : Fin 4000) : Fin 100000 :=
  ⟨t.val * 4000 + p.val, by have := point_lt t; have := p.isLt; omega⟩

/-- The row-block window at point t reads rows 4000·t … of its array. -/
theorem read_rows (c : Dev nD) (t : Fin cfg0.N) (p : Fin 4000) (k : Fin 128) :
    iblk0 V c 0 t (ix2 p k) = V c main_arg0 (ix2 (rowAt t p) k) := by
  show V c main_arg0 (((cfg0.win 0).blk t).view.emb (ix2 p k)) = _
  refine congrArg _ ?_
  funext a; apply Fin.ext
  obtain ⟨e0, e1, e2, e3, e4, e5⟩ := index_facts t
  match a with
  | ⟨0, _⟩ => show win0_0.index t (0 : Fin 2) * 4000 + 1 * p.val = t.val * 4000 + p.val; omega
  | ⟨1, _⟩ => show win0_0.index t (1 : Fin 2) * 128 + 1 * k.val = k.val; omega

/-- The matrix window holds the whole matrix at every point. -/
theorem read_matrix (c : Dev nD) (t : Fin cfg0.N) (k q : Fin 128) :
    iblk0 V c 1 t (ix2 k q) = V c main_arg2 (ix2 k q) := by
  show V c main_arg2 (((cfg0.win 1).blk t).view.emb (ix2 k q)) = _
  refine congrArg _ ?_
  funext a; apply Fin.ext
  obtain ⟨e0, e1, e2, e3, e4, e5⟩ := index_facts t
  match a with
  | ⟨0, _⟩ => show win0_1.index t (0 : Fin 2) * 128 + 1 * k.val = k.val; omega
  | ⟨1, _⟩ => show win0_1.index t (1 : Fin 2) * 128 + 1 * q.val = q.val; omega

/-- The result window at point t writes rows 4000·t … of its array. -/
theorem write_rows (t : Fin cfg0.N) (p : Fin 4000) (q : Fin 128) :
    ((cfg0.win 2).blk t).view.emb (ix2 p q) = ix2 (rowAt t p) q := by
  funext a; apply Fin.ext
  obtain ⟨e0, e1, e2, e3, e4, e5⟩ := index_facts t
  match a with
  | ⟨0, _⟩ => show win0_2.index t (0 : Fin 2) * 4000 + 1 * p.val = t.val * 4000 + p.val; omega
  | ⟨1, _⟩ => show win0_2.index t (1 : Fin 2) * 128 + 1 * q.val = q.val; omega

/-- What point t writes back is its block of the whole product of the arrays the region found. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S4000x128) origin, View.ld_unit_zero (S := S128x128) origin]
  funext j
  show k0_pay1 (iblk0 V c 0 t) (iblk0 V c 1 t) j = product (V c main_arg0) (V c main_arg2) (((cfg0.win 2).blk t).view.emb j)
  obtain ⟨p, q, rfl⟩ : ∃ (p : Fin 4000) (q : Fin 128), j = ix2 p q := ⟨j 0, j 1, eq_ix2 j⟩
  refine (stored_apply _ _ p q).trans ?_
  rw [write_rows]
  refine (Finset.sum_congr rfl fun k _ => ?_).trans (DotPlain.dotGeneral_apply (M := 100000) (K := 128) (N := 128) none _ _ (rowAt t p) q).symm
  rw [read_rows, read_matrix]

/-- An index of the result array is in point t's block iff each coordinate is in the block's range. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- The twenty-five blocks tile the result array: row r lies in the block of point r / 4000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨e0, e1, e2, e3, e4, e5⟩ := index_facts t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the region the result array is the whole product of the two arrays the region found. -/
theorem result_array (c : Dev nD) :
    (dat0 V c).arrAt 2 cfg0.N = product (V c main_arg0) (V c main_arg2) :=
  (dat0 V c).arrAt_eq_of_cover 2 (product (V c main_arg0) (V c main_arg2)) (fun t _ => flushed_eq V c t) covered

end Cert.KernelIdeal.Linear0

end
-- ==== Proof.Linear1.lean ====
/-
  The second kernel region: the rows of a [100000, 128] array, 4000 at a time, the hyperbolic tangent taken entry by
  entry and the block then multiplied by a resident [128, 128] matrix into a zero accumulator. At the exact instance the
  change of format in front of the product is the identity and the kernel's tangent is the host's, so point t writes
  back rows 4000·t … 4000·t + 3999 of tanh(H) · W, and the twenty-five blocks tile the result array: after the region the
  result array IS the host's plain product of the host's tanh of the first array by the second.
-/
import proofs.«174331_j12884901888559_1_alg».proof.Proof.Gen.KernelIdeal.Frame
import proofs.«174331_j12884901888559_1_alg».proof.Proof.LibMatmulPlain
import proofs.«174331_j12884901888559_1_alg».proof.Proof.LibDotPlain
import Idealize.ShloMosaic.Lib.ValueIdx
import Idealize.ShloMosaic.Lib.Pipeline.Value

set_option maxRecDepth 16384

noncomputable section

namespace Cert.KernelIdeal.Linear1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The origin of a rank-two block. -/
theorem origin : (![0, 0] : Fin 2 → Nat) = fun _ => 0 := funext fun a => by fin_cases a <;> rfl

/-- The grid has twenty-five points. -/
theorem point_lt (t : Fin cfg1.N) : t.val < 25 := lt_of_lt_of_eq t.isLt N_1

/-- The index maps over the grid: the row-block windows move with the point, the matrix window stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole array the region computes, as the host spells it: the product of tanh of the first array by the second. -/
abbrev product (X : FVec Ideal S100000x128 .f32) (W : FVec Ideal S128x128 .f32) : FVec Ideal S100000x128 .f32 :=
  Host.dotGeneral (DotDims.plain 100000 128 128) none (Host.tanh X) W

/-- The body's stored value at an entry: the sum over the contraction coordinate of tanh of the block's entry times the matrix's. -/
theorem stored_apply (x0 : Vec Ideal S4000x128 .f32) (x1 : Vec Ideal S128x128 .f32) (p : Fin 4000) (q : Fin 128) :
    k1_pay1 x0 x1 (ix2 p q) = ∑ k : Fin 128, FloatOps.tanh (F := Ideal) (φ := .f32) (x0 (ix2 p k)) * x1 (ix2 k q) := by
  unfold k1_pay1
  rw [shapeCast_self]
  exact MatmulPlain.matmul_zero_apply (M := 4000) (K := 128) (N := 128) none _ _ p q

/-- Row p of point t's block is row 4000·t + p of the array. -/
def rowAt (t : Fin cfg1.N) (p : Fin 4000) : Fin 100000 :=
  ⟨t.val * 4000 + p.val, by have := point_lt t; have := p.isLt; omega⟩

/-- The row-block window at point t reads rows 4000·t … of its array. -/
theorem read_rows (c : Dev nD) (t : Fin cfg1.N) (p : Fin 4000) (k : Fin 128) :
    iblk1 V c 0 t (ix2 p k) = V c main_v46 (ix2 (rowAt t p) k) := by
  show V c main_v46 (((cfg1.win 0).blk t).view.emb (ix2 p k)) = _
  refine congrArg _ ?_
  funext a; apply Fin.ext
  obtain ⟨e0, e1, e2, e3, e4, e5⟩ := index_facts t
  match a with
  | ⟨0, _⟩ => show win1_0.index t (0 : Fin 2) * 4000 + 1 * p.val = t.val * 4000 + p.val; omega
  | ⟨1, _⟩ => show win1_0.index t (1 : Fin 2) * 128 + 1 * k.val = k.val; omega

/-- The matrix window holds the whole matrix at every point. -/
theorem read_matrix (c : Dev nD) (t : Fin cfg1.N) (k q : Fin 128) :
    iblk1 V c 1 t (ix2 k q) = V c main_arg4 (ix2 k q) := by
  show V c main_arg4 (((cfg1.win 1).blk t).view.emb (ix2 k q)) = _
  refine congrArg _ ?_
  funext a; apply Fin.ext
  obtain ⟨e0, e1, e2, e3, e4, e5⟩ := index_facts t
  match a with
  | ⟨0, _⟩ => show win1_1.index t (0 : Fin 2) * 128 + 1 * k.val = k.val; omega
  | ⟨1, _⟩ => show win1_1.index t (1 : Fin 2) * 128 + 1 * q.val = q.val; omega

/-- The result window at point t writes rows 4000·t … of its array. -/
theorem write_rows (t : Fin cfg1.N) (p : Fin 4000) (q : Fin 128) :
    ((cfg1.win 2).blk t).view.emb (ix2 p q) = ix2 (rowAt t p) q := by
  funext a; apply Fin.ext
  obtain ⟨e0, e1, e2, e3, e4, e5⟩ := index_facts t
  match a with
  | ⟨0, _⟩ => show win1_2.index t (0 : Fin 2) * 4000 + 1 * p.val = t.val * 4000 + p.val; omega
  | ⟨1, _⟩ => show win1_2.index t (1 : Fin 2) * 128 + 1 * q.val = q.val; omega

/-- What point t writes back is its block of the whole product of the arrays the region found. -/
theorem flushed_eq (c : Dev nD) (t : Fin cfg1.N) :
    (dat1 V c).flushed 2 t = ((cfg1.win 2).blk t).view.read (Elt Ideal) (product (V c main_v46) (V c main_arg4)) := by
  show (cfg1.win 2).cut (grid1.coords t) ((dat1 V c).after 2 t) = _
  rw [after1_2]
  unfold out1_2
  rw [View.canon_unit_zero origin]
  simp only [View.ld_unit_zero (S := S4000x128) origin, View.ld_unit_zero (S := S128x128) origin]
  funext j
  show k1_pay1 (iblk1 V c 0 t) (iblk1 V c 1 t) j = product (V c main_v46) (V c main_arg4) (((cfg1.win 2).blk t).view.emb j)
  obtain ⟨p, q, rfl⟩ : ∃ (p : Fin 4000) (q : Fin 128), j = ix2 p q := ⟨j 0, j 1, eq_ix2 j⟩
  refine (stored_apply _ _ p q).trans ?_
  rw [write_rows]
  refine (Finset.sum_congr rfl fun k _ => ?_).trans (DotPlain.dotGeneral_apply (M := 100000) (K := 128) (N := 128) none _ _ (rowAt t p) q).symm
  rw [read_rows, read_matrix]
  rfl

/-- An index of the result array is in point t's block iff each coordinate is in the block's range. -/
theorem mem_block (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47).slice (win1_2.rect t)).set ↔ _
  rw [View.set_slice_whole, Rect.mem_set_unit]
  exact Iff.rfl

/-- The twenty-five blocks tile the result array: row r lies in the block of point r / 4000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨e0, e1, e2, e3, e4, e5⟩ := index_facts t
  have ht : t.val = (i 0).val / 4000 := rfl
  refine ⟨t, flush1_2 t, ?_⟩
  rw [mem_block]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After the region the result array is the whole product of the two arrays the region found. -/
theorem result_array (c : Dev nD) :
    (dat1 V c).arrAt 2 cfg1.N = product (V c main_v46) (V c main_arg4) :=
  (dat1 V c).arrAt_eq_of_cover 2 (product (V c main_v46) (V c main_arg4)) (fun t _ => flushed_eq V c t) covered

end Cert.KernelIdeal.Linear1

end
-- ==== Proof.Linear2.lean ====
/-
  The third kernel region: the rows of a [100000, 128] array, 4000 at a time, the hyperbolic tangent taken entry by
  entry, the block multiplied by a resident [128, 128] matrix into a zero accumulator, and a resident [1, 128] row added to
  every row of the product. At the exact instance the change of format in front of the product is the identity, so point t
  writes back rows 4000·t … 4000·t + 3999 of the array whose entry (r, q) is ∑ k tanh(H (r, k)) · W (k, q) + b (0, q), and
  the twenty-five blocks tile the result array.
-/
import proofs.«174331_j12884901888559_1_alg».proof.Proof.Gen.KernelIdeal.Frame
import proofs.«174331_j12884901888559_1_alg».proof.Proof.LibMatmulPlain
import proofs.«174331_j12884901888559_1_alg».proof.Proof.LibDotPlain
import Idealize.ShloMosaic.Lib.ValueIdx
import Idealize.ShloMosaic.Lib.ValueLayout
import Idealize.ShloMosaic.Lib.Pipeline.Value

set_option maxRecDepth 16384

noncomputable section

namespace Cert.KernelIdeal.Linear2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The origin of a rank-two block. -/
theorem origin : (![0, 0] : Fin 2 → Nat) = fun _ => 0 := funext fun a => by fin_cases a <;> rfl

/-- The grid has twenty-five points. -/
theorem point_lt (t : Fin cfg2.N) : t.val < 25 := lt_of_lt_of_eq t.isLt N_2

/-- The index maps over the grid: the row-block windows move with the point, the matrix window stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0
    ∧ win2_2.index t (0 : Fin 2) = 0 ∧ win2_2.index t (1 : Fin 2) = 0 :=
  (by decide +kernel : ∀ t : Fin grid2.N, _)

/-- Entry (r, q) of the array the region computes. -/
abbrev entry (X : FVec Ideal S100000x128 .f32) (W : FVec Ideal S128x128 .f32) (b : FVec Ideal S1x128 .f32) (r : Fin 100000) (q : Fin 128) : EReal :=
  (∑ k : Fin 128, FloatOps.tanh (F := Ideal) (φ := .f32) (X (ix2 r k)) * W (ix2 k q)) + b (ix2 (0 : Fin 1) q)

/-- The whole array the region computes, index by index. -/
abbrev product (X : FVec Ideal S100000x128 .f32) (W : FVec Ideal S128x128 .f32) (b : FVec Ideal S1x128 .f32) : FVec Ideal S100000x128 .f32 :=
  fun i => entry X W b (i 0) (i 1)

/-- The body's stored value at an entry: the sum over the contraction coordinate of tanh of the block's entry times the matrix's, plus the row's entry in that column. -/
theorem stored_apply (x0 : Vec Ideal S4000x128 .f32) (x1 : Vec Ideal S128x128 .f32) (x2 : Vec Ideal S1x128 .f32) (p : Fin 4000) (q : Fin 128) :
    k2_pay1 x0 x1 x2 (ix2 p q)
      = (∑ k : Fin 128, FloatOps.tanh (F := Ideal) (φ := .f32) (x0 (ix2 p k)) * x1 (ix2 k q)) + x2 (ix2 (0 : Fin 1) q) := by
  unfold k2_pay1
  simp only [shapeCast_self]
  rw [addf_apply, broadcastTo_1b_ab_apply]
  exact congrArg (· + x2 (ix2 (0 : Fin 1) q)) (MatmulPlain.matmul_zero_apply (M := 4000) (K := 128) (N := 128) none _ _ p q)

/-- Row p of point t's block is row 4000·t + p of the array. -/
def rowAt (t : Fin cfg2.N) (p : Fin 4000) : Fin 100000 :=
  ⟨t.val * 4000 + p.val, by have := point_lt t; have := p.isLt; omega⟩

/-- The row-block window at point t reads rows 4000·t … of its array. -/
theorem read_rows (c : Dev nD) (t : Fin cfg2.N) (p : Fin 4000) (k : Fin 128) :
    iblk2 V c 0 t (ix2 p k) = V c main_v63 (ix2 (rowAt t p) k) := by
  show V c main_v63 (((cfg2.win 0).blk t).view.emb (ix2 p k)) = _
  refine congrArg _ ?_
  funext a; apply Fin.ext
  obtain ⟨e0, e1, e2, e3, e4, e5, e6, e7⟩ := index_facts t
  match a with
  | ⟨0, _⟩ => show win2_0.index t (0 : Fin 2) * 4000 + 1 * p.val = t.val * 4000 + p.val; omega
  | ⟨1, _⟩ => show win2_0.index t (1 : Fin 2) * 128 + 1 * k.val = k.val; omega

/-- The matrix window holds the whole matrix at every point. -/
theorem read_matrix (c : Dev nD) (t : Fin cfg2.N) (k q : Fin 128) :
    iblk2 V c 1 t (ix2 k q) = V c main_v64 (ix2 k q) := by
  show V c main_v64 (((cfg2.win 1).blk t).view.emb (ix2 k q)) = _
  refine congrArg _ ?_
  funext a; apply Fin.ext
  obtain ⟨e0, e1, e2, e3, e4, e5, e6, e7⟩ := index_facts t
  match a with
  | ⟨0, _⟩ => show win2_1.index t (0 : Fin 2) * 128 + 1 * k.val = k.val; omega
  | ⟨1, _⟩ => show win2_1.index t (1 : Fin 2) * 128 + 1 * q.val = q.val; omega

/-- The row window holds the whole row at every point. -/
theorem read_bias (c : Dev nD) (t : Fin cfg2.N) (q : Fin 128) :
    iblk2 V c 2 t (ix2 (0 : Fin 1) q) = V c main_v66 (ix2 (0 : Fin 1) q) := by
  show V c main_v66 (((cfg2.win 2).blk t).view.emb (ix2 (0 : Fin 1) q)) = _
  refine congrArg _ ?_
  funext a; apply Fin.ext
  obtain ⟨e0, e1, e2, e3, e4, e5, e6, e7⟩ := index_facts t
  match a with
  | ⟨0, _⟩ => show win2_2.index t (0 : Fin 2) * 1 + 1 * 0 = 0; omega
  | ⟨1, _⟩ => show win2_2.index t (1 : Fin 2) * 128 + 1 * q.val = q.val; omega

/-- The result window at point t writes rows 4000·t … of its array. -/
theorem write_rows (t : Fin cfg2.N) (p : Fin 4000) (q : Fin 128) :
    ((cfg2.win 3).blk t).view.emb (ix2 p q) = ix2 (rowAt t p) q := by
  funext a; apply Fin.ext
  obtain ⟨e0, e1, e2, e3, e4, e5, e6, e7⟩ := index_facts t
  match a with
  | ⟨0, _⟩ => show win2_3.index t (0 : Fin 2) * 4000 + 1 * p.val = t.val * 4000 + p.val; omega
  | ⟨1, _⟩ => show win2_3.index t (1 : Fin 2) * 128 + 1 * q.val = q.val; omega

/-- What point t writes back is its block of the whole product of the arrays the region found. -/
theorem flushed_eq (c : Dev nD) (t : Fin cfg2.N) :
    (dat2 V c).flushed 3 t = ((cfg2.win 3).blk t).view.read (Elt Ideal) (product (V c main_v63) (V c main_v64) (V c main_v66)) := by
  show (cfg2.win 3).cut (grid2.coords t) ((dat2 V c).after 3 t) = _
  rw [after2_3]
  unfold out2_3
  rw [View.canon_unit_zero origin]
  simp only [View.ld_unit_zero (S := S4000x128) origin, View.ld_unit_zero (S := S128x128) origin, View.ld_unit_zero (S := S1x128) origin]
  funext j
  show k2_pay1 (iblk2 V c 0 t) (iblk2 V c 1 t) (iblk2 V c 2 t) j = product (V c main_v63) (V c main_v64) (V c main_v66) (((cfg2.win 3).blk t).view.emb j)
  obtain ⟨p, q, rfl⟩ : ∃ (p : Fin 4000) (q : Fin 128), j = ix2 p q := ⟨j 0, j 1, eq_ix2 j⟩
  refine (stored_apply _ _ _ p q).trans ?_
  rw [write_rows, read_bias]
  show _ = entry (V c main_v63) (V c main_v64) (V c main_v66) (rowAt t p) q
  refine congrArg (· + V c main_v66 (ix2 (0 : Fin 1) q)) (Finset.sum_congr rfl fun k _ => ?_)
  rw [read_rows, read_matrix]

/-- An index of the result array is in point t's block iff each coordinate is in the block's range. -/
theorem mem_block (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v67).slice (win2_3.rect t)).set ↔ _
  rw [View.set_slice_whole, Rect.mem_set_unit]
  exact Iff.rfl

/-- The twenty-five blocks tile the result array: row r lies in the block of point r / 4000. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 4000, by rw [show cfg2.N = 25 from N_2]; omega⟩
  obtain ⟨e0, e1, e2, e3, e4, e5, e6, e7⟩ := index_facts t
  have ht : t.val = (i 0).val / 4000 := rfl
  refine ⟨t, flush2_3 t, ?_⟩
  rw [mem_block]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- After the region the result array is that array of the three arrays the region found. -/
theorem result_array (c : Dev nD) :
    (dat2 V c).arrAt 3 cfg2.N = product (V c main_v63) (V c main_v64) (V c main_v66) :=
  (dat2 V c).arrAt_eq_of_cover 3 (product (V c main_v63) (V c main_v64) (V c main_v66)) (fun t _ => flushed_eq V c t) covered

end Cert.KernelIdeal.Linear2

end
-- ==== Proof.Logits.lean ====
/-
  The classifier's two spellings. The kernel program pads the [128, 1] weight column to [128, 128] and the bias to a
  [1, 128] row with zeros, computes tanh(H) · W_pad + b_pad blockwise and keeps column 0; the reference computes
  tanh(H) · w_c + b_c directly. Column 0 of the padded weight is the column w_c and entry (0, 0) of the padded row is
  b_c, so both are, for node r, ∑ k tanh(H (r, k)) · w_c (k, 0) + b_c (0) — the same sum over the same index set, and
  nothing of real arithmetic is used (what the other 127 columns hold never enters).
-/
import proofs.«174331_j12884901888559_1_alg».proof.Proof.Spec
import proofs.«174331_j12884901888559_1_alg».proof.Proof.Linear2
import proofs.«174331_j12884901888559_1_alg».proof.Proof.LibDotPlain
import Idealize.ShloMosaic.Lib.KernelVsHost
import Idealize.ShloMosaic.Lib.Pipeline.Value
import Idealize.ShloMosaic.Lib.ValueIdx

set_option maxRecDepth 16384

noncomputable section

namespace Cert.KernelIdeal.Classifier

open Cert.KernelIdeal Idealize.ShloMosaic Idealize.ShloMosaic.ValueIdx

/-- The weight column padded with zeros to a square matrix, as the kernel program's host code builds it. -/
def paddedW {F : FTy → Type} [FloatOps F] (wc : FVec F S128x1 .f32) : FVec F S128x128 .f32 :=
  pad S128x128 ![0, 0] ![0, 127] ![0, 0] wc (sitofp (F := F) .f32 (constantI S_ 32 0#32)) Facts₀.pads_S128x1_S128x128_000_01270 Facts₀.h_S_

/-- The bias padded with zeros to a row, as the kernel program's host code builds it. -/
def paddedB {F : FTy → Type} [FloatOps F] (bc : FVec F S1 .f32) : FVec F S1x128 .f32 :=
  pad S1x128 ![0, 0] ![0, 127] ![0, 0] (broadcastInDim S1x1 ![1] Facts₀.bcast_S1_S1x1_1 bc) (sitofp (F := F) .f32 (constantI S_ 32 0#32)) Facts₀.pads_S1x1_S1x128_000_01270 Facts₀.h_S_

/-- Column 0 of the padded weight is the weight column. -/
theorem paddedW_col0 (wc : FVec Ideal S128x1 .f32) (k : Fin 128) : paddedW wc (ix2 k (0 : Fin 128)) = wc (ix2 k (0 : Fin 1)) := by
  unfold paddedW
  refine pad_apply_of_inside _ _ _ _ _ _ _ (ix2 k (0 : Fin 128)) (ix2 k (0 : Fin 1)) fun a => ?_
  match a with
  | ⟨0, _⟩ => show k.val = 0 + k.val * (0 + 1); omega
  | ⟨1, _⟩ => show 0 = 0 + 0 * (0 + 1); omega

/-- Entry (0, 0) of the padded row is the bias. -/
theorem paddedB_00 (bc : FVec Ideal S1 .f32) : paddedB bc (ix2 (0 : Fin 1) (0 : Fin 128)) = bc (ix1 (0 : Fin 1)) := by
  unfold paddedB
  refine (pad_apply_of_inside _ _ _ _ _ _ _ (ix2 (0 : Fin 1) (0 : Fin 128)) (ix2 (0 : Fin 1) (0 : Fin 1)) fun a => ?_).trans ?_
  · match a with
    | ⟨0, _⟩ => show 0 = 0 + 0 * (0 + 1); omega
    | ⟨1, _⟩ => show 0 = 0 + 0 * (0 + 1); omega
  · refine broadcastInDim_apply _ _ _ _ (ix1 (0 : Fin 1)) fun a => ?_
    match a with
    | ⟨0, _⟩ => rfl

/-- The kernel program's logits — column 0 of the third region's array, as a vector — are the reference's. -/
theorem logits_eq (H : FVec Ideal S100000x128 .f32) (wc : FVec Ideal S128x1 .f32) (bc : FVec Ideal S1 .f32) :
    shapeCast S100000 (extractStridedSlice S100000x1 ![0, 0] (Linear2.product H (paddedW wc) (paddedB bc)) Facts₀.slices_S100000x128_S100000x1_0_0) Facts₀.shapeCasts_S100000x1_S100000
      = Cert.Spec.logitsOf (Host.tanh H) wc bc := by
  funext i
  obtain ⟨r, rfl⟩ : ∃ r : Fin 100000, i = ix1 r := ⟨i 0, eq_ix1 i⟩
  have hcast : ((⟨2, ![100000, 1]⟩ : Shape).rowMajor (ix2 r (0 : Fin 1))).val = ((⟨1, ![100000]⟩ : Shape).rowMajor (ix1 r)).val := by
    rw [Shape.rowMajor_val_two, Shape.rowMajor_val_one]; show r.val * 1 + 0 = r.val; omega
  rw [shapeCast_apply _ _ (ix1 r) (ix2 r (0 : Fin 1)) hcast]
  rw [extractStridedSlice_apply _ _ _ (ix2 r (0 : Fin 1)) (ix2 r (0 : Fin 128)) (fun a => by
    match a with
    | ⟨0, _⟩ => show r.val = 0 + r.val; omega
    | ⟨1, _⟩ => show 0 = 0 + 0; omega)]
  show Linear2.entry H (paddedW wc) (paddedB bc) r (0 : Fin 128) = _
  unfold Cert.Spec.logitsOf
  rw [shapeCast_apply _ _ (ix1 r) (ix2 r (0 : Fin 1)) hcast, addf_apply]
  refine congrArg₂ (· + ·) ?_ ?_
  · refine (Finset.sum_congr rfl fun k _ => ?_).trans
      (DotPlain.dotGeneral_apply (M := 100000) (K := 128) (N := 1) none (Host.tanh H) wc r (0 : Fin 1)).symm
    rw [paddedW_col0]
    rfl
  · rw [paddedB_00]
    refine Eq.symm ((broadcastInDim_apply _ _ _ (ix2 r (0 : Fin 1)) (ix2 (0 : Fin 1) (0 : Fin 1)) fun a => ?_).trans
      (broadcastInDim_apply _ _ _ (ix2 (0 : Fin 1) (0 : Fin 1)) (ix1 (0 : Fin 1)) fun a => ?_))
    · match a with
      | ⟨0, _⟩ => rfl
      | ⟨1, _⟩ => rfl
    · match a with
      | ⟨0, _⟩ => rfl

end Cert.KernelIdeal.Classifier

end
-- ==== Proof.Stages.lean ====
/-
  The idealized kernel program's buffers at each boundary of its run, read as the staged computation of the argument
  arrays. The host stretches between the kernel regions are the reference's own operations, so each stretch's result is a
  stage of the computation applied to what the stretch found; each kernel region's result array is the product its
  blocks tile (the three region modules); a buffer nothing in between writes keeps its contents.
-/
import proofs.«174331_j12884901888559_1_alg».proof.Proof.Gen.KernelIdeal.Frame
import proofs.«174331_j12884901888559_1_alg».proof.Proof.Spec
import proofs.«174331_j12884901888559_1_alg».proof.Proof.Linear0
import proofs.«174331_j12884901888559_1_alg».proof.Proof.Linear1
import proofs.«174331_j12884901888559_1_alg».proof.Proof.Linear2
import proofs.«174331_j12884901888559_1_alg».proof.Proof.Logits

set_option maxRecDepth 16384

noncomputable section

namespace Cert.KernelIdeal.Stages

open Cert.KernelIdeal Cert.KernelIdeal.Gen Idealize.ShloMosaic Idealize.ShloMosaic.TcCoe Idealize.ShloMosaic.StableHlo
open Idealize.SL.Sem

section AnyFamily

/-! # Host stretches alone: these hold at any float family (no product is read here) -/

variable {F : FTy → Type} [FloatOps F]
variable (m : (ℓ : Loc nD τ sig) → Buf (Elt F) ℓ) (ρ : Dev nD → PrngReg) (c : Dev nD)

/-! ## Up to the first region: the edge list's three vectors, and the arguments untouched -/

/-- The buffers after the first host stretch (the two index vectors and the degrees are made there), under a name of its
    own: later stretches read these buffers again, and each reading stops at this name. -/
def first : Valuation τ sig (Elt F) := W1 m ρ c

/-- The sources vector. -/
theorem rows_at1 : first m ρ c (Proc.devRef .tc main_v3) = Cert.Spec.rowsOf (m ((c : Thread nD τ).loc main_arg1)) := by
  show after hostOps0 (W0 m ρ c) (Proc.devRef .tc main_v3) = _
  after_results_simp
  try rfl
/-- The targets vector. -/
theorem cols_at1 : first m ρ c (Proc.devRef .tc main_v6) = Cert.Spec.colsOf (m ((c : Thread nD τ).loc main_arg1)) := by
  show after hostOps0 (W0 m ρ c) (Proc.devRef .tc main_v6) = _
  after_results_simp
  try rfl
/-- Where the in-degree is positive. -/
theorem pos_at1 : first m ρ c (Proc.devRef .tc main_v12) = cmpf (F := F) .ogt (Cert.Spec.degOf (m ((c : Thread nD τ).loc main_arg1))) (broadcastInDim S100000 ![] Facts₀.bcast_S_S100000 (constant S_ .f32 0x00000000#32)) := by
  show after hostOps0 (W0 m ρ c) (Proc.devRef .tc main_v12) = _
  after_results_simp
  try rfl
/-- The in-degrees' inverse square roots. -/
theorem rsqrt_at1 : first m ρ c (Proc.devRef .tc main_v13) = Host.rsqrt (Cert.Spec.degOf (m ((c : Thread nD τ).loc main_arg1))) := by
  show after hostOps0 (W0 m ρ c) (Proc.devRef .tc main_v13) = _
  after_results_simp
  try rfl
/-- The scalar zero the degree test falls back to. -/
theorem zero_at1 : first m ρ c (Proc.devRef .tc main_cst_2) = (constant S_ .f32 0x00000000#32 : FVec F S_ .f32) := by
  show after hostOps0 (W0 m ρ c) (Proc.devRef .tc main_cst_2) = _
  after_results_simp
  try rfl
/-- Argument 0 is as launched. -/
theorem arg0_at1 : first m ρ c (Proc.devRef .tc main_arg0) = (m ((c : Thread nD τ).loc main_arg0)) := by
  show after hostOps0 (W0 m ρ c) (Proc.devRef .tc main_arg0) = _
  after_results_simp
  try rfl
/-- Argument 2 is as launched. -/
theorem arg2_at1 : first m ρ c (Proc.devRef .tc main_arg2) = (m ((c : Thread nD τ).loc main_arg2)) := by
  show after hostOps0 (W0 m ρ c) (Proc.devRef .tc main_arg2) = _
  after_results_simp
  try rfl
/-- Argument 3 is as launched. -/
theorem arg3_at1 : first m ρ c (Proc.devRef .tc main_arg3) = (m ((c : Thread nD τ).loc main_arg3)) := by
  show after hostOps0 (W0 m ρ c) (Proc.devRef .tc main_arg3) = _
  after_results_simp
  try rfl
/-- Argument 4 is as launched. -/
theorem arg4_at1 : first m ρ c (Proc.devRef .tc main_arg4) = (m ((c : Thread nD τ).loc main_arg4)) := by
  show after hostOps0 (W0 m ρ c) (Proc.devRef .tc main_arg4) = _
  after_results_simp
  try rfl
/-- Argument 5 is as launched. -/
theorem arg5_at1 : first m ρ c (Proc.devRef .tc main_arg5) = (m ((c : Thread nD τ).loc main_arg5)) := by
  show after hostOps0 (W0 m ρ c) (Proc.devRef .tc main_arg5) = _
  after_results_simp
  try rfl
/-- Argument 6 is as launched. -/
theorem arg6_at1 : first m ρ c (Proc.devRef .tc main_arg6) = (m ((c : Thread nD τ).loc main_arg6)) := by
  show after hostOps0 (W0 m ρ c) (Proc.devRef .tc main_arg6) = _
  after_results_simp
  try rfl
/-- Argument 7 is as launched. -/
theorem arg7_at1 : first m ρ c (Proc.devRef .tc main_arg7) = (m ((c : Thread nD τ).loc main_arg7)) := by
  show after hostOps0 (W0 m ρ c) (Proc.devRef .tc main_arg7) = _
  after_results_simp
  try rfl
/-- The sources vector, kept. -/
theorem rows_at3 : W3 m ρ c (Proc.devRef .tc main_v3) = Cert.Spec.rowsOf (m ((c : Thread nD τ).loc main_arg1)) := by
  show after hostOps0_2 (after hostOps0_1 (first m ρ c)) (Proc.devRef .tc main_v3) = _
  after_results_simp
  exact rows_at1 m ρ c
/-- The targets vector, kept. -/
theorem cols_at3 : W3 m ρ c (Proc.devRef .tc main_v6) = Cert.Spec.colsOf (m ((c : Thread nD τ).loc main_arg1)) := by
  show after hostOps0_2 (after hostOps0_1 (first m ρ c)) (Proc.devRef .tc main_v6) = _
  after_results_simp
  exact cols_at1 m ρ c
/-- Argument 0, kept. -/
theorem arg0_at3 : W3 m ρ c (Proc.devRef .tc main_arg0) = (m ((c : Thread nD τ).loc main_arg0)) := by
  show after hostOps0_2 (after hostOps0_1 (first m ρ c)) (Proc.devRef .tc main_arg0) = _
  after_results_simp
  exact arg0_at1 m ρ c
/-- Argument 2, kept. -/
theorem arg2_at3 : W3 m ρ c (Proc.devRef .tc main_arg2) = (m ((c : Thread nD τ).loc main_arg2)) := by
  show after hostOps0_2 (after hostOps0_1 (first m ρ c)) (Proc.devRef .tc main_arg2) = _
  after_results_simp
  exact arg2_at1 m ρ c
/-- Argument 3, kept. -/
theorem arg3_at3 : W3 m ρ c (Proc.devRef .tc main_arg3) = (m ((c : Thread nD τ).loc main_arg3)) := by
  show after hostOps0_2 (after hostOps0_1 (first m ρ c)) (Proc.devRef .tc main_arg3) = _
  after_results_simp
  exact arg3_at1 m ρ c
/-- Argument 4, kept. -/
theorem arg4_at3 : W3 m ρ c (Proc.devRef .tc main_arg4) = (m ((c : Thread nD τ).loc main_arg4)) := by
  show after hostOps0_2 (after hostOps0_1 (first m ρ c)) (Proc.devRef .tc main_arg4) = _
  after_results_simp
  exact arg4_at1 m ρ c
/-- Argument 5, kept. -/
theorem arg5_at3 : W3 m ρ c (Proc.devRef .tc main_arg5) = (m ((c : Thread nD τ).loc main_arg5)) := by
  show after hostOps0_2 (after hostOps0_1 (first m ρ c)) (Proc.devRef .tc main_arg5) = _
  after_results_simp
  exact arg5_at1 m ρ c
/-- Argument 6, kept. -/
theorem arg6_at3 : W3 m ρ c (Proc.devRef .tc main_arg6) = (m ((c : Thread nD τ).loc main_arg6)) := by
  show after hostOps0_2 (after hostOps0_1 (first m ρ c)) (Proc.devRef .tc main_arg6) = _
  after_results_simp
  exact arg6_at1 m ρ c
/-- Argument 7, kept. -/
theorem arg7_at3 : W3 m ρ c (Proc.devRef .tc main_arg7) = (m ((c : Thread nD τ).loc main_arg7)) := by
  show after hostOps0_2 (after hostOps0_1 (first m ρ c)) (Proc.devRef .tc main_arg7) = _
  after_results_simp
  exact arg7_at1 m ρ c
/-- The edges' normalization: the degrees' inverse square roots gathered at both ends of every edge. -/
theorem norm_at3 : W3 m ρ c (Proc.devRef .tc main_v29) = Cert.Spec.normOf (m ((c : Thread nD τ).loc main_arg1)) := by
  show after hostOps0_2 (after hostOps0_1 (first m ρ c)) (Proc.devRef .tc main_v29) = _
  after_results_simp
  rw [rows_at1, cols_at1, pos_at1, rsqrt_at1, zero_at1]
  rfl

/-- The weight column padded with zeros to a square matrix: what the stretch before the third region leaves, whatever it
    found. -/
theorem wpad_of (V : Valuation τ sig (Elt F)) :
    after hostOps2_3 (after hostOps2_2 (after hostOps2_1 (after hostOps2 V))) (Proc.devRef .tc main_v64) = Classifier.paddedW (V (Proc.devRef .tc main_arg6)) := by
  after_results_simp
  rfl

/-- The bias padded with zeros to a row, likewise. -/
theorem bpad_of (V : Valuation τ sig (Elt F)) :
    after hostOps2_3 (after hostOps2_2 (after hostOps2_1 (after hostOps2 V))) (Proc.devRef .tc main_v66) = Classifier.paddedB (V (Proc.devRef .tc main_arg7)) := by
  after_results_simp
  rfl

end AnyFamily

/-! # The run at the exact instance -/

variable (m : (ℓ : Loc nD τ sig) → Buf (Elt Ideal) ℓ) (ρ : Dev nD → PrngReg) (c : Dev nD)

/-! ## After the first region -/

/-- The first region's result array: X · W₁. -/
theorem prod_at4 : W4 m ρ c (Proc.devRef .tc main_v30) = Cert.Spec.times (m ((c : Thread nD τ).loc main_arg0)) (m ((c : Thread nD τ).loc main_arg2)) := by
  refine (W4_arr m ρ c 2).trans ((Linear0.result_array (V3 m ρ) c).trans ?_)
  show Linear0.product (W3 m ρ c (Proc.devRef .tc main_arg0)) (W3 m ρ c (Proc.devRef .tc main_arg2)) = _
  rw [arg0_at3, arg2_at3]
  rfl

/-! ## Up to the second region -/

/-- The first layer's pre-activation: the aggregation of X · W₁. -/
theorem pre1_at5 : W5 m ρ c (Proc.devRef .tc main_v46) = (Cert.Spec.layer1 (m ((c : Thread nD τ).loc main_arg0)) (m ((c : Thread nD τ).loc main_arg1)) (m ((c : Thread nD τ).loc main_arg2)) (m ((c : Thread nD τ).loc main_arg3))) := by
  show after hostOps1 (W4 m ρ c) (Proc.devRef .tc main_v46) = _
  after_results_simp
  rw [W4_of_ne m ρ c main_v6 (by decide), W4_of_ne m ρ c main_v3 (by decide), W4_of_ne m ρ c main_v29 (by decide),
    W4_of_ne m ρ c main_arg3 (by decide), prod_at4, rows_at3, cols_at3, norm_at3, arg3_at3]
  rfl

/-- The sources vector, kept. -/
theorem rows_at5 : W5 m ρ c (Proc.devRef .tc main_v3) = Cert.Spec.rowsOf (m ((c : Thread nD τ).loc main_arg1)) := by
  show after hostOps1 (W4 m ρ c) (Proc.devRef .tc main_v3) = _
  after_results_simp
  rw [W4_of_ne m ρ c main_v3 (by decide)]
  exact rows_at3 m ρ c
/-- The targets vector, kept. -/
theorem cols_at5 : W5 m ρ c (Proc.devRef .tc main_v6) = Cert.Spec.colsOf (m ((c : Thread nD τ).loc main_arg1)) := by
  show after hostOps1 (W4 m ρ c) (Proc.devRef .tc main_v6) = _
  after_results_simp
  rw [W4_of_ne m ρ c main_v6 (by decide)]
  exact cols_at3 m ρ c
/-- The edges' normalization, kept. -/
theorem norm_at5 : W5 m ρ c (Proc.devRef .tc main_v29) = Cert.Spec.normOf (m ((c : Thread nD τ).loc main_arg1)) := by
  show after hostOps1 (W4 m ρ c) (Proc.devRef .tc main_v29) = _
  after_results_simp
  rw [W4_of_ne m ρ c main_v29 (by decide)]
  exact norm_at3 m ρ c
/-- Argument 4, kept. -/
theorem arg4_at5 : W5 m ρ c (Proc.devRef .tc main_arg4) = (m ((c : Thread nD τ).loc main_arg4)) := by
  show after hostOps1 (W4 m ρ c) (Proc.devRef .tc main_arg4) = _
  after_results_simp
  rw [W4_of_ne m ρ c main_arg4 (by decide)]
  exact arg4_at3 m ρ c
/-- Argument 5, kept. -/
theorem arg5_at5 : W5 m ρ c (Proc.devRef .tc main_arg5) = (m ((c : Thread nD τ).loc main_arg5)) := by
  show after hostOps1 (W4 m ρ c) (Proc.devRef .tc main_arg5) = _
  after_results_simp
  rw [W4_of_ne m ρ c main_arg5 (by decide)]
  exact arg5_at3 m ρ c
/-- Argument 6, kept. -/
theorem arg6_at5 : W5 m ρ c (Proc.devRef .tc main_arg6) = (m ((c : Thread nD τ).loc main_arg6)) := by
  show after hostOps1 (W4 m ρ c) (Proc.devRef .tc main_arg6) = _
  after_results_simp
  rw [W4_of_ne m ρ c main_arg6 (by decide)]
  exact arg6_at3 m ρ c
/-- Argument 7, kept. -/
theorem arg7_at5 : W5 m ρ c (Proc.devRef .tc main_arg7) = (m ((c : Thread nD τ).loc main_arg7)) := by
  show after hostOps1 (W4 m ρ c) (Proc.devRef .tc main_arg7) = _
  after_results_simp
  rw [W4_of_ne m ρ c main_arg7 (by decide)]
  exact arg7_at3 m ρ c

/-! ## After the second region -/

/-- The second region's result array: tanh of the first layer's pre-activation, times W₂. -/
theorem prod_at6 : W6 m ρ c (Proc.devRef .tc main_v47) = Cert.Spec.times (Host.tanh (Cert.Spec.layer1 (m ((c : Thread nD τ).loc main_arg0)) (m ((c : Thread nD τ).loc main_arg1)) (m ((c : Thread nD τ).loc main_arg2)) (m ((c : Thread nD τ).loc main_arg3)))) (m ((c : Thread nD τ).loc main_arg4)) := by
  refine (W6_arr m ρ c 2).trans ((Linear1.result_array (V5 m ρ) c).trans ?_)
  show Linear1.product (W5 m ρ c (Proc.devRef .tc main_v46)) (W5 m ρ c (Proc.devRef .tc main_arg4)) = _
  rw [pre1_at5, arg4_at5]
  rfl

/-! ## Up to the third region -/

/-- The second layer's pre-activation: the aggregation of tanh(layer 1) · W₂. -/
theorem pre2_at10 : W10 m ρ c (Proc.devRef .tc main_v63) = (Cert.Spec.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show after hostOps2_3 (after hostOps2_2 (after hostOps2_1 (after hostOps2 (W6 m ρ c)))) (Proc.devRef .tc main_v63) = _
  after_results_simp
  rw [W6_of_ne m ρ c main_v6 (by decide), W6_of_ne m ρ c main_v3 (by decide), W6_of_ne m ρ c main_v29 (by decide),
    W6_of_ne m ρ c main_arg5 (by decide), prod_at6, rows_at5, cols_at5, norm_at5, arg5_at5]
  rfl

/-- The weight column, padded with zeros to a square matrix. -/
theorem wpad_at10 : W10 m ρ c (Proc.devRef .tc main_v64) = Classifier.paddedW (F := Ideal) (m ((c : Thread nD τ).loc main_arg6)) := by
  refine (wpad_of (W6 m ρ c)).trans ?_
  rw [W6_of_ne m ρ c main_arg6 (by decide), arg6_at5]

/-- The bias, padded with zeros to a row. -/
theorem bpad_at10 : W10 m ρ c (Proc.devRef .tc main_v66) = Classifier.paddedB (F := Ideal) (m ((c : Thread nD τ).loc main_arg7)) := by
  refine (bpad_of (W6 m ρ c)).trans ?_
  rw [W6_of_ne m ρ c main_arg7 (by decide), arg7_at5]

/-! ## After the third region, and the result -/

/-- The third region's result array: tanh of the second layer's pre-activation times the padded weight, plus the padded bias row. -/
theorem logit_at11 : W11 m ρ c (Proc.devRef .tc main_v67)
    = Linear2.product (Cert.Spec.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Classifier.paddedW (F := Ideal) (m ((c : Thread nD τ).loc main_arg6))) (Classifier.paddedB (F := Ideal) (m ((c : Thread nD τ).loc main_arg7))) := by
  refine (W11_arr m ρ c 3).trans ((Linear2.result_array (V10 m ρ) c).trans ?_)
  show Linear2.product (W10 m ρ c (Proc.devRef .tc main_v63)) (W10 m ρ c (Proc.devRef .tc main_v64)) (W10 m ρ c (Proc.devRef .tc main_v66)) = _
  rw [pre2_at10, wpad_at10, bpad_at10]

/-- The result buffer: the softmax of column 0 of the third region's array. -/
theorem out_at12 : W12 m ρ c (Proc.devRef .tc main_v79)
    = Cert.Spec.softmaxOf (shapeCast S100000 (extractStridedSlice S100000x1 ![0, 0] (W11 m ρ c (Proc.devRef .tc main_v67)) Facts₀.slices_S100000x128_S100000x1_0_0) Facts₀.shapeCasts_S100000x1_S100000) := by
  show after hostOps3 (W11 m ρ c) (Proc.devRef .tc main_v79) = _
  after_results_simp
  rfl

/-- The idealized kernel program's result buffer holds the staged computation of the argument arrays. -/
theorem kernel_value : W12 m ρ c (Proc.devRef .tc main_v79)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [out_at12, logit_at11, Classifier.logits_eq]
  rfl

end Cert.KernelIdeal.Stages

end
-- ==== Proof.lean ====
/-
  A two-layer graph convolution with a softmax over all nodes: the kernel program computes the three dense products
  (X · W₁; tanh(·) · W₂; tanh(·) · W_c + b_c on a weight column padded to a full lane width) in three kernel regions,
  4000 rows of the node array at a time, and leaves the edge-indexed gathers and scatter-adds and the softmax to host
  operations — the very operations the reference program runs. At the exact instance the change of format in front of
  each product is the identity, a product into a zero accumulator is the host's product, and the kernel's tanh is the
  host's; so each region's result array is the corresponding host product (its twenty-five row blocks tile the array),
  and column 0 of the padded classifier is the reference's classifier. The two result arrays are therefore one
  function of the arguments — the staged computation of Proof/Spec.lean — and no law of real arithmetic beyond
  0 + x = x is used: the sums on the two sides are the same sums over the same index sets, so nothing here needs the
  inputs to be finite.

  The word-level kernel program's frame and the idealized one's are the generated frames of the three-region run; the
  reference's frame is its run with the result dropped; the idealization rewrote no operation, so it preserves trivially.
-/
import proofs.«174331_j12884901888559_1_alg».proof.Defs
import proofs.«174331_j12884901888559_1_alg».proof.Proof.Gen.Kernel
import proofs.«174331_j12884901888559_1_alg».proof.Proof.Gen.Kernel.Frame
import proofs.«174331_j12884901888559_1_alg».proof.Proof.Gen.KernelIdeal
import proofs.«174331_j12884901888559_1_alg».proof.Proof.Gen.KernelIdeal.Frame
import proofs.«174331_j12884901888559_1_alg».proof.Proof.Gen.ReferenceIdeal
import proofs.«174331_j12884901888559_1_alg».proof.Proof.Gen.Pre_finite_inputs
import proofs.«174331_j12884901888559_1_alg».proof.Proof.RefRun
import proofs.«174331_j12884901888559_1_alg».proof.Proof.RefValue
import proofs.«174331_j12884901888559_1_alg».proof.Proof.KRun
import proofs.«174331_j12884901888559_1_alg».proof.Proof.Stages
import Idealize.ShloMosaic.Adequacy
import Idealize.ShloMosaic.Init

noncomputable section

namespace Cert.Proof

open Idealize.ShloMosaic Idealize.SL.Sem

/-- The word-level kernel program runs and keeps its arguments: the generated frame of the three-region run. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference program runs and keeps its arguments: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the staged computation of the arguments in their
    result arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.kernel_value m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.result_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
